-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x32 : Shape := ⟨2, ![65536, 32]⟩
abbrev S65536x16 : Shape := ⟨2, ![65536, 16]⟩
abbrev S256x288 : Shape := ⟨2, ![256, 288]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x32 : S_.BroadcastsInDim S65536x32 (![] : Fin 0 → Fin S65536x32.rank)
  reducesTo_S65536x32_S_d0_1 : S65536x32.ReducesTo [0, 1] S_
  bcast_S_S65536x16 : S_.BroadcastsInDim S65536x16 (![] : Fin 0 → Fin S65536x16.rank)
  reducesTo_S65536x16_S_d0_1 : S65536x16.ReducesTo [0, 1] S_
  bcast_S_S256x288 : S_.BroadcastsInDim S256x288 (![] : Fin 0 → Fin S256x288.rank)
  reducesTo_S256x288_S_d0_1 : S256x288.ReducesTo [0, 1] S_

variable [Facts]

def fn_part1 {F : FTy → Type} [FloatOps F] (main_v13 : IVec S_ 1) (main_v16 : IVec S256x288 1) : IVec S_ 1 :=
  let main_c_5 : IVec S_ 1 := constantI S_ 1 1#1
  let main_v17 : IVec S_ 1 := (fun x v => Host.reduce IntOp.andi x v reducesTo_S256x288_S_d0_1 h_S_) main_v16 main_c_5
  let main_v18 : IVec S_ 1 := andi main_v13 main_v17
  main_v18

def fn {F : FTy → Type} [FloatOps F] (main_arg0 : FVec F S65536x256 .f32) (main_arg1 : FVec F S65536x32 .f32) (main_arg2 : FVec F S65536x16 .f32) (main_arg3 : FVec F S256x288 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x32 .f32 := Host.absf main_arg1
  let main_cst_0 : FVec F S_ .f32 := constant S_ .f32 0x7F800000#32
  let main_v5 : FVec F S65536x32 .f32 := broadcastInDim S65536x32 ![] bcast_S_S65536x32 main_cst_0
  let main_v6 : IVec S65536x32 1 := cmpf .olt main_v4 main_v5
  let main_c_1 : IVec S_ 1 := constantI S_ 1 1#1
  let main_v7 : IVec S_ 1 := (fun x v => Host.reduce IntOp.andi x v reducesTo_S65536x32_S_d0_1 h_S_) main_v6 main_c_1
  let main_v8 : IVec S_ 1 := andi main_v3 main_v7
  let main_v9 : FVec F S65536x16 .f32 := Host.absf main_arg2
  let main_cst_2 : FVec F S_ .f32 := constant S_ .f32 0x7F800000#32
  let main_v10 : FVec F S65536x16 .f32 := broadcastInDim S65536x16 ![] bcast_S_S65536x16 main_cst_2
  let main_v11 : IVec S65536x16 1 := cmpf .olt main_v9 main_v10
  let main_c_3 : IVec S_ 1 := constantI S_ 1 1#1
  let main_v12 : IVec S_ 1 := (fun x v => Host.reduce IntOp.andi x v reducesTo_S65536x16_S_d0_1 h_S_) main_v11 main_c_3
  let main_v13 : IVec S_ 1 := andi main_v8 main_v12
  let main_v14 : FVec F S256x288 .f32 := Host.absf main_arg3
  let main_cst_4 : FVec F S_ .f32 := constant S_ .f32 0x7F800000#32
  let main_v15 : FVec F S256x288 .f32 := broadcastInDim S256x288 ![] bcast_S_S256x288 main_cst_4
  let main_v16 : IVec S256x288 1 := cmpf .olt main_v14 main_v15
  fn_part1 (F := F) main_v13 main_v16
-- ==== Kernel.lean ====
abbrev S65536x256 : Shape := ⟨2, ![65536, 256]⟩
abbrev S65536x32 : Shape := ⟨2, ![65536, 32]⟩
abbrev S65536x16 : Shape := ⟨2, ![65536, 16]⟩
abbrev S256x288 : Shape := ⟨2, ![256, 288]⟩
abbrev S65536x240 : Shape := ⟨2, ![65536, 240]⟩
abbrev S256x16 : Shape := ⟨2, ![256, 16]⟩
abbrev S16x256 : Shape := ⟨2, ![16, 256]⟩
abbrev S256x240 : Shape := ⟨2, ![256, 240]⟩
abbrev S240x256 : Shape := ⟨2, ![240, 256]⟩
abbrev S256x32 : Shape := ⟨2, ![256, 32]⟩
abbrev S32x256 : Shape := ⟨2, ![32, 256]⟩
abbrev S4096x16 : Shape := ⟨2, ![4096, 16]⟩
abbrev S4096x240 : Shape := ⟨2, ![4096, 240]⟩
abbrev S4096x32 : Shape := ⟨2, ![4096, 32]⟩
abbrev S4096x256 : Shape := ⟨2, ![4096, 256]⟩

abbrev nBuf : Space → Nat
  | .hbm => 14
  | .vmem => 15
  | .smem => 0
  | _ => 0

abbrev bufTy : (tb : Table) → Fin (tcTables nBuf tb) → BufTy
  | .hbm, ⟨0, _⟩ => ⟨S65536x256, .f32⟩
  | .hbm, ⟨1, _⟩ => ⟨S65536x32, .f32⟩
  | .hbm, ⟨2, _⟩ => ⟨S65536x16, .f32⟩
  | .hbm, ⟨3, _⟩ => ⟨S256x288, .f32⟩
  | .hbm, ⟨4, _⟩ => ⟨S65536x16, .f32⟩
  | .hbm, ⟨5, _⟩ => ⟨S65536x240, .f32⟩
  | .hbm, ⟨6, _⟩ => ⟨S256x16, .f32⟩
  | .hbm, ⟨7, _⟩ => ⟨S16x256, .f32⟩
  | .hbm, ⟨8, _⟩ => ⟨S256x240, .f32⟩
  | .hbm, ⟨9, _⟩ => ⟨S240x256, .f32⟩
  | .hbm, ⟨10, _⟩ => ⟨S256x32, .f32⟩
  | .hbm, ⟨11, _⟩ => ⟨S32x256, .f32⟩
  | .hbm, ⟨12, _⟩ => ⟨S65536x256, .f32⟩
  | .hbm, ⟨13, _⟩ => ⟨S65536x16, .f32⟩
  | .local _ .vmem, ⟨0, _⟩ => ⟨S4096x16, .f32⟩
  | .local _ .vmem, ⟨1, _⟩ => ⟨S4096x16, .f32⟩
  | .local _ .vmem, ⟨2, _⟩ => ⟨S4096x240, .f32⟩
  | .local _ .vmem, ⟨3, _⟩ => ⟨S4096x240, .f32⟩
  | .local _ .vmem, ⟨4, _⟩ => ⟨S4096x32, .f32⟩
  | .local _ .vmem, ⟨5, _⟩ => ⟨S4096x32, .f32⟩
  | .local _ .vmem, ⟨6, _⟩ => ⟨S4096x16, .f32⟩
  | .local _ .vmem, ⟨7, _⟩ => ⟨S4096x16, .f32⟩
  | .local _ .vmem, ⟨8, _⟩ => ⟨S16x256, .f32⟩
  | .local _ .vmem, ⟨9, _⟩ => ⟨S240x256, .f32⟩
  | .local _ .vmem, ⟨10, _⟩ => ⟨S32x256, .f32⟩
  | .local _ .vmem, ⟨11, _⟩ => ⟨S4096x256, .f32⟩
  | .local _ .vmem, ⟨12, _⟩ => ⟨S4096x256, .f32⟩
  | .local _ .vmem, ⟨13, _⟩ => ⟨S4096x16, .f32⟩
  | .local _ .vmem, ⟨14, _⟩ => ⟨S4096x16, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S240x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S65536x256_S65536x16_0_0 : S65536x256.Slices ![0, 0] S65536x16
  slices_S65536x256_S65536x240_0_16 : S65536x256.Slices ![0, 16] S65536x240
  slices_S256x288_S256x16_0_0 : S256x288.Slices ![0, 0] S256x16
  transposes_S256x16_S16x256_1_0 : S256x16.Transposes [1, 0] S16x256
  slices_S256x288_S256x240_0_16 : S256x288.Slices ![0, 16] S256x240
  transposes_S256x240_S240x256_1_0 : S256x240.Transposes [1, 0] S240x256
  slices_S256x288_S256x32_0_256 : S256x288.Slices ![0, 256] S256x32
  transposes_S256x32_S32x256_1_0 : S256x32.Transposes [1, 0] S32x256
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S4096x240_S4096x240_0_0 : ∀ a, (![0, 0] : Fin 2 → Nat) a + S4096x240.size a ≤ S4096x240.size a
  h_S4096x240 : 0 < S4096x240.numel
  shapeCasts_S4096x240_S4096x240 : S4096x240.ShapeCasts S4096x240
  inb_S4096x32_S4096x32_0_0 : ∀ a, (![0, 0] : Fin 2 → Nat) a + S4096x32.size a ≤ S4096x32.size a
  h_S4096x32 : 0 < S4096x32.numel
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S240x256_S240x256_0_0 : ∀ a, (![0, 0] : Fin 2 → Nat) a + S240x256.size a ≤ S240x256.size a
  h_S240x256 : 0 < S240x256.numel
  shapeCasts_S240x256_S240x256 : S240x256.ShapeCasts S240x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S4096x256_S4096x256_0_0 : ∀ a, (![0, 0] : Fin 2 → Nat) a + S4096x256.size a ≤ S4096x256.size a
  h_S4096x256 : 0 < S4096x256.numel
  dot_S4096x16_S16x256_S4096x256_1_0_0_1_n_n_wf : DotDims.WF S4096x16 S16x256 S4096x256 [1] [0] [0] [1] [] []
  dot_S4096x240_S240x256_S4096x256_1_0_0_1_n_n_wf : DotDims.WF S4096x240 S240x256 S4096x256 [1] [0] [0] [1] [] []
  dot_S4096x32_S32x256_S4096x256_1_0_0_1_n_n_wf : DotDims.WF S4096x32 S32x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S65536x16.size a
  hwx0_0 : ∀ i : grid0.Coords, EltTy.bits .f32 = 32 ∨ (Rect.block (s := S65536x16) S4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x240.size a ≤ S65536x240.size a
  hwx0_1 : ∀ i : grid0.Coords, EltTy.bits .f32 = 32 ∨ (Rect.block (s := S65536x240) S4096x240.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x32.size a ≤ S65536x32.size a
  hwx0_2 : ∀ i : grid0.Coords, EltTy.bits .f32 = 32 ∨ (Rect.block (s := S65536x32) S4096x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x16.size a ≤ S65536x16.size a
  hwx0_3 : ∀ i : grid0.Coords, EltTy.bits .f32 = 32 ∨ (Rect.block (s := S65536x16) S4096x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x256.size a
  hwx0_4 : ∀ i : grid0.Coords, EltTy.bits .f32 = 32 ∨ (Rect.block (s := S16x256) S16x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S240x256.size a ≤ S240x256.size a
  hwx0_5 : ∀ i : grid0.Coords, EltTy.bits .f32 = 32 ∨ (Rect.block (s := S240x256) S240x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x256.size a ≤ S32x256.size a
  hwx0_6 : ∀ i : grid0.Coords, EltTy.bits .f32 = 32 ∨ (Rect.block (s := S32x256) S32x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x256.size a ≤ S65536x256.size a
  hwx0_7 : ∀ i : grid0.Coords, EltTy.bits .f32 = 32 ∨ (Rect.block (s := S65536x256) S4096x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x16.size a ≤ S65536x16.size a
  hwx0_8 : ∀ i : grid0.Coords, EltTy.bits .f32 = 32 ∨ (Rect.block (s := S65536x16) S4096x16.size (cc0_transform_8 i) (hinb0_8 i)).WholeWords (EltTy.packing .f32)

variable [Facts₀]

def dot_S4096x16_S16x256_S4096x256_1_0_0_1_n_n : DotDims S4096x16 S16x256 S4096x256 where
  lhsContracting := [1]
  rhsContracting := [0]
  lhsNonContracting := [0]
  rhsNonContracting := [1]
  lhsBatch := []
  rhsBatch := []
  wf := dot_S4096x16_S16x256_S4096x256_1_0_0_1_n_n_wf
def dot_S4096x240_S240x256_S4096x256_1_0_0_1_n_n : DotDims S4096x240 S240x256 S4096x256 where
  lhsContracting := [1]
  rhsContracting := [0]
  lhsNonContracting := [0]
  rhsNonContracting := [1]
  lhsBatch := []
  rhsBatch := []
  wf := dot_S4096x240_S240x256_S4096x256_1_0_0_1_n_n_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf

abbrev win0_0 : Pipeline.Window sig grid0 :=
  Pipeline.Window.ofSpec (Memref.whole main_v0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x240.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4096x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S16x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S240x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S32x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S4096x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S4096x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x32 : Shape := ⟨2, ![65536, 32]⟩
abbrev S65536x16 : Shape := ⟨2, ![65536, 16]⟩
abbrev S256x288 : Shape := ⟨2, ![256, 288]⟩
abbrev S65536x240 : Shape := ⟨2, ![65536, 240]⟩
abbrev S65536x288 : Shape := ⟨2, ![65536, 288]⟩
abbrev S288x256 : Shape := ⟨2, ![288, 256]⟩

abbrev nBuf : Space → Nat
  | .hbm => 12
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x32, .f32⟩
  | .hbm, ⟨2, _⟩ => ⟨S65536x16, .f32⟩
  | .hbm, ⟨3, _⟩ => ⟨S256x288, .f32⟩
  | .hbm, ⟨4, _⟩ => ⟨S65536x16, .f32⟩
  | .hbm, ⟨5, _⟩ => ⟨S65536x16, .f32⟩
  | .hbm, ⟨6, _⟩ => ⟨S65536x16, .f32⟩
  | .hbm, ⟨7, _⟩ => ⟨S65536x240, .f32⟩
  | .hbm, ⟨8, _⟩ => ⟨S65536x288, .f32⟩
  | .hbm, ⟨9, _⟩ => ⟨S65536x288, .f32⟩
  | .hbm, ⟨10, _⟩ => ⟨S288x256, .f32⟩
  | .hbm, ⟨11, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  slices_S65536x256_S65536x16_0_0 : S65536x256.Slices ![0, 0] S65536x16
  slices_S65536x256_S65536x240_0_16 : S65536x256.Slices ![0, 16] S65536x240
  concatenates_S65536x16_S65536x240_S65536x32_S65536x288_d1 : Shape.Concatenates [S65536x16, S65536x240, S65536x32] S65536x288 1
  transposes_S256x288_S288x256_1_0 : S256x288.Transposes [1, 0] S288x256
  dot_S65536x288_S288x256_S65536x256_1_0_0_1_n_n_wf : DotDims.WF S65536x288 S288x256 S65536x256 [1] [0] [0] [1] [] []

variable [Facts₀]

def dot_S65536x288_S288x256_S65536x256_1_0_0_1_n_n : DotDims S65536x288 S288x256 S65536x256 where
  lhsContracting := [1]
  rhsContracting := [0]
  lhsNonContracting := [0]
  rhsNonContracting := [1]
  lhsBatch := []
  rhsBatch := []
  wf := dot_S65536x288_S288x256_S65536x256_1_0_0_1_n_n_wf

class Facts : Prop extends Facts₀ where

variable [Facts]
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.KernelBlock.lean ====
/-
  One grid step of the kernel, at an entry of its block.

  A step holds 4096 rows.  Its next-state block is the sum of three matrix products into zero accumulators: the
  `tanh` of the observation block (4096 × 16), of the state's tail block (4096 × 240) and of the known-features
  block (4096 × 32), each against its own slab of the transposed weight (16, 240 and 32 rows of 256 columns).  At
  entry `(p, q)` every product is the plain sum over its contracted index, so the block is the three sums below.
  Its error block is the entrywise difference of the state's head block and the observation block.
-/
import proofs.«120562_j83322365543010_1_alg».proof.Proof.Gen.KernelIdeal.Skeleton
import proofs.«120562_j83322365543010_1_alg».proof.Proof.LibPlainMatmul
import Idealize.ShloMosaic.Lib.Pipeline.Value
import Idealize.ShloMosaic.Lib.ValueIdx

noncomputable section

namespace Cert.NextState

open Cert.KernelIdeal Cert.KernelIdeal.Gen Idealize.ShloMosaic Idealize.ShloMosaic.ValueIdx

/-- The next-state block at `(p, q)`: the three partial products, each a sum over its own contracted index. -/
theorem block_nextState_apply (tl : FVec Ideal S4096x240 .f32) (kn : FVec Ideal S4096x32 .f32) (ob : FVec Ideal S4096x16 .f32)
    (w1 : FVec Ideal S16x256 .f32) (w2 : FVec Ideal S240x256 .f32) (w3 : FVec Ideal S32x256 .f32) (p : Fin 4096) (q : Fin 256) :
    k0_pay2 (F := Ideal) tl kn ob w1 w2 w3 (ix2 p q)
      = (∑ k : Fin 16, Ideal.tanh (ob (ix2 p k)) * w1 (ix2 k q))
        + (∑ k : Fin 240, Ideal.tanh (tl (ix2 p k)) * w2 (ix2 k q))
        + (∑ k : Fin 32, Ideal.tanh (kn (ix2 p k)) * w3 (ix2 k q)) := by
  unfold k0_pay2
  simp only [shapeCast_self]
  show matmul (DotDims.plain 4096 16 256) none (tanh ob) w1 (constant ⟨2, ![4096, 256]⟩ .f32 0x00000000#32) (ix2 p q)
      + matmul (DotDims.plain 4096 240 256) none (tanh tl) w2 (constant ⟨2, ![4096, 256]⟩ .f32 0x00000000#32) (ix2 p q)
      + matmul (DotDims.plain 4096 32 256) none (tanh kn) w3 (constant ⟨2, ![4096, 256]⟩ .f32 0x00000000#32) (ix2 p q) = _
  rw [Cert.PlainMatmul.matmul_plain_zero_apply, Cert.PlainMatmul.matmul_plain_zero_apply,
    Cert.PlainMatmul.matmul_plain_zero_apply]
  rfl

/-- The error block at `(p, k)`: the state's head block there less the observation block there. -/
theorem block_stateError_apply (hd ob : FVec Ideal S4096x16 .f32) (p : Fin 4096) (k : Fin 16) :
    k0_pay1 (F := Ideal) hd ob (ix2 p k) = hd (ix2 p k) - ob (ix2 p k) := by
  unfold k0_pay1
  simp only [shapeCast_self]
  rfl

end Cert.NextState

end
-- ==== Proof.Spec.lean ====
/-
  What the two programs compute, entry by entry, over the extended reals.

  The arguments are a state matrix `st` (65536 × 256), known features `kn` (65536 × 32), an observation `ob`
  (65536 × 16) and a weight matrix `A` (256 × 288).  The second result is the error `st[r, k] - ob[r, k]` on the
  first sixteen state columns.  The first result is the next state: row `r` of the 288-wide vector
  `[ob[r, ·], st[r, 16 ..], kn[r, ·]]`, passed through `tanh`, times the transposed weight; written here as the
  three partial products over the column ranges `0 .. 15`, `16 .. 255` and `256 .. 287` of `A`.

  Two laws join the programs to this form.  A sum over 288 columns is the sum of its three stretches
  (`sum_three_stretches`; only commutativity and associativity of `+`, so it holds at the infinities too).  And the
  reference builds the first stretch's argument as `st - (st - ob)`, which is `ob` exactly where both entries are
  real numbers (`sub_sub_self_of_real`): at an infinite state entry the difference is not cancelled, which is why
  the inputs are taken finite.
-/
import Idealize.ShloMosaic.PureOps.Ideal
import Idealize.ShloMosaic.Lib.ValueIdx
import Mathlib.Algebra.BigOperators.Fin

noncomputable section

namespace Cert.NextState

open Idealize.ShloMosaic Idealize.ShloMosaic.ValueIdx

/-- State column `k` of the first sixteen. -/
def headCol (k : Fin 16) : Fin 256 := ⟨k.val, by have := k.isLt; omega⟩
/-- State column `16 + k`: the `k`-th of the remaining 240. -/
def tailCol (k : Fin 240) : Fin 256 := ⟨16 + k.val, by have := k.isLt; omega⟩
/-- Weight column `k`, met by the observation's column `k`. -/
def wHead (k : Fin 16) : Fin 288 := ⟨k.val, by have := k.isLt; omega⟩
/-- Weight column `16 + k`, met by state column `16 + k`. -/
def wTail (k : Fin 240) : Fin 288 := ⟨16 + k.val, by have := k.isLt; omega⟩
/-- Weight column `256 + k`, met by the known features' column `k`. -/
def wKnown (k : Fin 32) : Fin 288 := ⟨256 + k.val, by have := k.isLt; omega⟩

/-- The next state at `(r, j)`: `∑ tanh(ob[r,k]) A[j,k] + ∑ tanh(st[r,16+k]) A[j,16+k] + ∑ tanh(kn[r,k]) A[j,256+k]`. -/
def nextState (st : FVec Ideal ⟨2, ![65536, 256]⟩ .f32) (kn : FVec Ideal ⟨2, ![65536, 32]⟩ .f32)
    (ob : FVec Ideal ⟨2, ![65536, 16]⟩ .f32) (A : FVec Ideal ⟨2, ![256, 288]⟩ .f32) :
    FVec Ideal ⟨2, ![65536, 256]⟩ .f32 := fun i =>
  (∑ k : Fin 16, Ideal.tanh (ob (ix2 (i 0) k)) * A (ix2 (i 1) (wHead k)))
    + (∑ k : Fin 240, Ideal.tanh (st (ix2 (i 0) (tailCol k))) * A (ix2 (i 1) (wTail k)))
    + (∑ k : Fin 32, Ideal.tanh (kn (ix2 (i 0) k)) * A (ix2 (i 1) (wKnown k)))

/-- The error at `(r, k)`: the state's entry there less the observation's. -/
def stateError (st : FVec Ideal ⟨2, ![65536, 256]⟩ .f32) (ob : FVec Ideal ⟨2, ![65536, 16]⟩ .f32) :
    FVec Ideal ⟨2, ![65536, 16]⟩ .f32 := fun i =>
  st (ix2 (i 0) (headCol (i 1))) - ob (ix2 (i 0) (i 1))

/-- Every entry of an array is a real number. -/
def AllReal {s : Shape} (x : s.Idx → EReal) : Prop := ∀ i, x i ≠ ⊤ ∧ x i ≠ ⊥

/-- A sum over the 288 weight columns is the sum over `0 .. 15`, over `16 .. 255` and over `256 .. 287`. -/
theorem sum_three_stretches (f : Fin 288 → EReal) :
    ∑ k : Fin 288, f k
      = (∑ k : Fin 16, f (wHead k)) + (∑ k : Fin 240, f (wTail k)) + (∑ k : Fin 32, f (wKnown k)) := by
  have h1 : ∑ k : Fin 288, f k
      = (∑ k : Fin 256, f (Fin.castAdd 32 k)) + ∑ k : Fin 32, f (Fin.natAdd 256 k) :=
    Fin.sum_univ_add (a := 256) (b := 32) f
  have h2 : (∑ k : Fin 256, f (Fin.castAdd 32 k))
      = (∑ k : Fin 16, f (Fin.castAdd 32 (Fin.castAdd 240 k))) + ∑ k : Fin 240, f (Fin.castAdd 32 (Fin.natAdd 16 k)) :=
    Fin.sum_univ_add (a := 16) (b := 240) fun k => f (Fin.castAdd 32 k)
  rw [h1, h2]
  rfl

/-- For real `x` and `y`, `x - (x - y) = y` on the extended reals. -/
theorem sub_sub_self_of_real {x y : EReal} (hx : x ≠ ⊤ ∧ x ≠ ⊥) (hy : y ≠ ⊤ ∧ y ≠ ⊥) : x - (x - y) = y := by
  lift x to ℝ using hx
  lift y to ℝ using hy
  rw [← EReal.coe_sub, ← EReal.coe_sub]
  exact congrArg _ (by ring)

end Cert.NextState

end
-- ==== Proof.KernelArrays.lean ====
/-
  The arrays the kernel's windows stage, read at an entry in terms of the four arguments.

  Before the grid runs, the host cuts the state into its first sixteen columns and its remaining 240, and cuts the
  weight's columns `0 .. 15`, `16 .. 255` and `256 .. 287` into three slabs, each transposed.  So the head array at
  `(r, k)` is the state at `(r, k)`, the tail array at `(r, k)` the state at `(r, 16 + k)`, and slab entry `(k, q)` is
  the weight at `(q, k)`, `(q, 16 + k)` or `(q, 256 + k)`.  The known features and the observation are staged as
  they are.
-/
import proofs.«120562_j83322365543010_1_alg».proof.Proof.Gen.KernelIdeal.Frame
import proofs.«120562_j83322365543010_1_alg».proof.Proof.Spec
import Idealize.ShloMosaic.Lib.StableHlo.Run
import Idealize.ShloMosaic.Lib.Pipeline.Value
import Idealize.ShloMosaic.Lib.ValueLayout

noncomputable section

namespace Cert.NextState

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The four arguments on core `c`, at their literal types. -/
abbrev stArg (c : Dev nD) : FVec Ideal S65536x256 .f32 := m ((c : Thread nD τ).loc main_arg0)
abbrev knArg (c : Dev nD) : FVec Ideal S65536x32 .f32 := m ((c : Thread nD τ).loc main_arg1)
abbrev obArg (c : Dev nD) : FVec Ideal S65536x16 .f32 := m ((c : Thread nD τ).loc main_arg2)
abbrev wtArg (c : Dev nD) : FVec Ideal S256x288 .f32 := m ((c : Thread nD τ).loc main_arg3)

/-- The head array is the state's columns `0 .. 15`. -/
theorem headArr_apply (c : Dev nD) (r : Fin 65536) (k : Fin 16) :
    (V m c main_v0 : S65536x16.Idx → EReal) (ix2 r k) = stArg m c (ix2 r (headCol k)) := by
  have e : (V m c main_v0 : S65536x16.Idx → EReal)
      = extractStridedSlice S65536x16 ![0, 0] (stArg m c) slices_S65536x256_S65536x16_0_0 := by
    dsimp only [Gen.V, Gen.hostOps0]; after_results
  rw [e]
  exact slice2_axis1_apply 0 (stArg m c) slices_S65536x256_S65536x16_0_0 r k (headCol k) (Nat.zero_add _).symm

/-- The tail array is the state's columns `16 .. 255`. -/
theorem tailArr_apply (c : Dev nD) (r : Fin 65536) (k : Fin 240) :
    (V m c main_v1 : S65536x240.Idx → EReal) (ix2 r k) = stArg m c (ix2 r (tailCol k)) := by
  have e : (V m c main_v1 : S65536x240.Idx → EReal)
      = extractStridedSlice S65536x240 ![0, 16] (stArg m c) slices_S65536x256_S65536x240_0_16 := by
    dsimp only [Gen.V, Gen.hostOps0]; after_results
  rw [e]
  exact slice2_axis1_apply 16 (stArg m c) slices_S65536x256_S65536x240_0_16 r k (tailCol k) rfl

/-- The first slab at `(k, q)` is the weight at `(q, k)`. -/
theorem slab1_apply (c : Dev nD) (k : Fin 16) (q : Fin 256) :
    (V m c main_v3 : S16x256.Idx → EReal) (ix2 k q) = wtArg m c (ix2 q (wHead k)) := by
  have e : (V m c main_v3 : S16x256.Idx → EReal)
      = transpose S16x256 [1, 0] (extractStridedSlice S256x16 ![0, 0] (wtArg m c) slices_S256x288_S256x16_0_0)
          transposes_S256x16_S16x256_1_0 := by
    dsimp only [Gen.V, Gen.hostOps0]; after_results
  rw [e, transpose_ix2_apply]
  exact slice2_axis1_apply 0 (wtArg m c) slices_S256x288_S256x16_0_0 q k (wHead k) (Nat.zero_add _).symm

/-- The second slab at `(k, q)` is the weight at `(q, 16 + k)`. -/
theorem slab2_apply (c : Dev nD) (k : Fin 240) (q : Fin 256) :
    (V m c main_v5 : S240x256.Idx → EReal) (ix2 k q) = wtArg m c (ix2 q (wTail k)) := by
  have e : (V m c main_v5 : S240x256.Idx → EReal)
      = transpose S240x256 [1, 0] (extractStridedSlice S256x240 ![0, 16] (wtArg m c) slices_S256x288_S256x240_0_16)
          transposes_S256x240_S240x256_1_0 := by
    dsimp only [Gen.V, Gen.hostOps0]; after_results
  rw [e, transpose_ix2_apply]
  exact slice2_axis1_apply 16 (wtArg m c) slices_S256x288_S256x240_0_16 q k (wTail k) rfl

/-- The third slab at `(k, q)` is the weight at `(q, 256 + k)`. -/
theorem slab3_apply (c : Dev nD) (k : Fin 32) (q : Fin 256) :
    (V m c main_v7 : S32x256.Idx → EReal) (ix2 k q) = wtArg m c (ix2 q (wKnown k)) := by
  have e : (V m c main_v7 : S32x256.Idx → EReal)
      = transpose S32x256 [1, 0] (extractStridedSlice S256x32 ![0, 256] (wtArg m c) slices_S256x288_S256x32_0_256)
          transposes_S256x32_S32x256_1_0 := by
    dsimp only [Gen.V, Gen.hostOps0]; after_results
  rw [e, transpose_ix2_apply]
  exact slice2_axis1_apply 256 (wtArg m c) slices_S256x288_S256x32_0_256 q k (wKnown k) rfl

end Cert.NextState

end
-- ==== Proof.KernelValue.lean ====
/-
  From the kernel's blocks to its two result arrays.

  The grid has sixteen steps; step `t` stages rows `4096 t .. 4096 t + 4095` of the head, tail, known-features and
  observation arrays, the three weight slabs whole, and writes back the same rows of the two results.  Read through
  its windows, the block a step writes to the first result is the next state on those rows, and the block it writes
  to the second is the error there.  The sixteen row bands tile the 65536 rows, so after the run each result array
  is its specification everywhere.
-/
import proofs.«120562_j83322365543010_1_alg».proof.Proof.Gen.KernelIdeal.Value
import proofs.«120562_j83322365543010_1_alg».proof.Proof.KernelBlock
import proofs.«120562_j83322365543010_1_alg».proof.Proof.KernelArrays

noncomputable section

namespace Cert.NextState

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-- Every access of the body starts at the block's corner. -/
theorem corner : (![0, 0] : Fin 2 → Nat) = fun _ => 0 := funext fun a => by fin_cases a <;> rfl

/-! ## Where a step's blocks sit -/

/-- The row-banded windows sit at row block `t` on step `t`. -/
theorem band_index : ∀ t : Fin cfg0.N, win0_0.index t (0 : Fin 2) = t.val ∧ win0_1.index t (0 : Fin 2) = t.val
    ∧ win0_2.index t (0 : Fin 2) = t.val ∧ win0_3.index t (0 : Fin 2) = t.val
    ∧ win0_7.index t (0 : Fin 2) = t.val ∧ win0_8.index t (0 : Fin 2) = t.val :=
  (by decide +kernel : ∀ t : Fin grid0.N, _)

/-- The weight slabs never move, and no window moves along its columns. -/
theorem fixed_index : ∀ t : Fin cfg0.N, win0_4.index t (0 : Fin 2) = 0 ∧ win0_5.index t (0 : Fin 2) = 0
    ∧ win0_6.index t (0 : Fin 2) = 0
    ∧ win0_0.index t (1 : Fin 2) = 0 ∧ win0_1.index t (1 : Fin 2) = 0 ∧ win0_2.index t (1 : Fin 2) = 0
    ∧ win0_3.index t (1 : Fin 2) = 0 ∧ win0_4.index t (1 : Fin 2) = 0 ∧ win0_5.index t (1 : Fin 2) = 0
    ∧ win0_6.index t (1 : Fin 2) = 0 ∧ win0_7.index t (1 : Fin 2) = 0 ∧ win0_8.index t (1 : Fin 2) = 0 :=
  (by decide +kernel : ∀ t : Fin grid0.N, _)

theorem step_lt (t : Fin cfg0.N) : t.val < 16 := lt_of_lt_of_eq t.isLt N_0

/-- Row `p` of step `t`'s band is row `4096 t + p` of the arrays. -/
def bandRow (t : Fin cfg0.N) (p : Fin 4096) : Fin 65536 :=
  ⟨t.val * 4096 + p.val, by have := step_lt t; have := p.isLt; omega⟩

/-! ## The staged blocks, entry by entry -/

theorem headBlk_apply (c : Dev nD) (t : Fin cfg0.N) (p : Fin 4096) (k : Fin 16) :
    (iblk m c 0 t : S4096x16.Idx → EReal) (ix2 p k) = stArg m c (ix2 (bandRow t p) (headCol k)) := by
  obtain ⟨e, -, -, -, -, -⟩ := band_index t
  obtain ⟨-, -, -, z, -, -, -, -, -, -, -, -⟩ := fixed_index t
  rw [← headArr_apply]
  show V m c main_v0 (((cfg0.win 0).blk t).view.emb (ix2 p k)) = V m c main_v0 (ix2 (bandRow t p) k)
  refine congrArg _ (funext fun a => Fin.ext ?_)
  match a with
  | ⟨0, _⟩ => show win0_0.index t (0 : Fin 2) * 4096 + 1 * p.val = t.val * 4096 + p.val; omega
  | ⟨1, _⟩ => show win0_0.index t (1 : Fin 2) * 16 + 1 * k.val = k.val; omega

theorem tailBlk_apply (c : Dev nD) (t : Fin cfg0.N) (p : Fin 4096) (k : Fin 240) :
    (iblk m c 1 t : S4096x240.Idx → EReal) (ix2 p k) = stArg m c (ix2 (bandRow t p) (tailCol k)) := by
  obtain ⟨-, e, -, -, -, -⟩ := band_index t
  obtain ⟨-, -, -, -, z, -, -, -, -, -, -, -⟩ := fixed_index t
  rw [← tailArr_apply]
  show V m c main_v1 (((cfg0.win 1).blk t).view.emb (ix2 p k)) = V m c main_v1 (ix2 (bandRow t p) k)
  refine congrArg _ (funext fun a => Fin.ext ?_)
  match a with
  | ⟨0, _⟩ => show win0_1.index t (0 : Fin 2) * 4096 + 1 * p.val = t.val * 4096 + p.val; omega
  | ⟨1, _⟩ => show win0_1.index t (1 : Fin 2) * 240 + 1 * k.val = k.val; omega

theorem knBlk_apply (c : Dev nD) (t : Fin cfg0.N) (p : Fin 4096) (k : Fin 32) :
    (iblk m c 2 t : S4096x32.Idx → EReal) (ix2 p k) = knArg m c (ix2 (bandRow t p) k) := by
  obtain ⟨-, -, e, -, -, -⟩ := band_index t
  obtain ⟨-, -, -, -, -, z, -, -, -, -, -, -⟩ := fixed_index t
  show V m c main_arg1 (((cfg0.win 2).blk t).view.emb (ix2 p k)) = _
  rw [V_main_arg1]
  refine congrArg _ (funext fun a => Fin.ext ?_)
  match a with
  | ⟨0, _⟩ => show win0_2.index t (0 : Fin 2) * 4096 + 1 * p.val = t.val * 4096 + p.val; omega
  | ⟨1, _⟩ => show win0_2.index t (1 : Fin 2) * 32 + 1 * k.val = k.val; omega

theorem obBlk_apply (c : Dev nD) (t : Fin cfg0.N) (p : Fin 4096) (k : Fin 16) :
    (iblk m c 3 t : S4096x16.Idx → EReal) (ix2 p k) = obArg m c (ix2 (bandRow t p) k) := by
  obtain ⟨-, -, -, e, -, -⟩ := band_index t
  obtain ⟨-, -, -, -, -, -, z, -, -, -, -, -⟩ := fixed_index t
  show V m c main_arg2 (((cfg0.win 3).blk t).view.emb (ix2 p k)) = _
  rw [V_main_arg2]
  refine congrArg _ (funext fun a => Fin.ext ?_)
  match a with
  | ⟨0, _⟩ => show win0_3.index t (0 : Fin 2) * 4096 + 1 * p.val = t.val * 4096 + p.val; omega
  | ⟨1, _⟩ => show win0_3.index t (1 : Fin 2) * 16 + 1 * k.val = k.val; omega

theorem slab1Blk_apply (c : Dev nD) (t : Fin cfg0.N) (k : Fin 16) (q : Fin 256) :
    (iblk m c 4 t : S16x256.Idx → EReal) (ix2 k q) = wtArg m c (ix2 q (wHead k)) := by
  obtain ⟨e, -, -, -, -, -, -, z, -, -, -, -⟩ := fixed_index t
  rw [← slab1_apply]
  show V m c main_v3 (((cfg0.win 4).blk t).view.emb (ix2 k q)) = V m c main_v3 (ix2 k q)
  refine congrArg _ (funext fun a => Fin.ext ?_)
  match a with
  | ⟨0, _⟩ => show win0_4.index t (0 : Fin 2) * 16 + 1 * k.val = k.val; omega
  | ⟨1, _⟩ => show win0_4.index t (1 : Fin 2) * 256 + 1 * q.val = q.val; omega

theorem slab2Blk_apply (c : Dev nD) (t : Fin cfg0.N) (k : Fin 240) (q : Fin 256) :
    (iblk m c 5 t : S240x256.Idx → EReal) (ix2 k q) = wtArg m c (ix2 q (wTail k)) := by
  obtain ⟨-, e, -, -, -, -, -, -, z, -, -, -⟩ := fixed_index t
  rw [← slab2_apply]
  show V m c main_v5 (((cfg0.win 5).blk t).view.emb (ix2 k q)) = V m c main_v5 (ix2 k q)
  refine congrArg _ (funext fun a => Fin.ext ?_)
  match a with
  | ⟨0, _⟩ => show win0_5.index t (0 : Fin 2) * 240 + 1 * k.val = k.val; omega
  | ⟨1, _⟩ => show win0_5.index t (1 : Fin 2) * 256 + 1 * q.val = q.val; omega

theorem slab3Blk_apply (c : Dev nD) (t : Fin cfg0.N) (k : Fin 32) (q : Fin 256) :
    (iblk m c 6 t : S32x256.Idx → EReal) (ix2 k q) = wtArg m c (ix2 q (wKnown k)) := by
  obtain ⟨-, -, e, -, -, -, -, -, -, z, -, -⟩ := fixed_index t
  rw [← slab3_apply]
  show V m c main_v7 (((cfg0.win 6).blk t).view.emb (ix2 k q)) = V m c main_v7 (ix2 k q)
  refine congrArg _ (funext fun a => Fin.ext ?_)
  match a with
  | ⟨0, _⟩ => show win0_6.index t (0 : Fin 2) * 32 + 1 * k.val = k.val; omega
  | ⟨1, _⟩ => show win0_6.index t (1 : Fin 2) * 256 + 1 * q.val = q.val; omega

/-- Entry `(p, q)` of the first result's block on step `t` is entry `(4096 t + p, q)` of the array. -/
theorem nextStateBlk_emb (t : Fin cfg0.N) (p : Fin 4096) (q : Fin 256) :
    ((cfg0.win 7).blk t).view.emb (ix2 p q) = ix2 (bandRow t p) q := by
  obtain ⟨-, -, -, -, e, -⟩ := band_index t
  obtain ⟨-, -, -, -, -, -, -, -, -, -, z, -⟩ := fixed_index t
  refine funext fun a => Fin.ext ?_
  match a with
  | ⟨0, _⟩ => show win0_7.index t (0 : Fin 2) * 4096 + 1 * p.val = t.val * 4096 + p.val; omega
  | ⟨1, _⟩ => show win0_7.index t (1 : Fin 2) * 256 + 1 * q.val = q.val; omega

/-- Entry `(p, k)` of the second result's block on step `t` is entry `(4096 t + p, k)` of the array. -/
theorem stateErrorBlk_emb (t : Fin cfg0.N) (p : Fin 4096) (k : Fin 16) :
    ((cfg0.win 8).blk t).view.emb (ix2 p k) = ix2 (bandRow t p) k := by
  obtain ⟨-, -, -, -, -, e⟩ := band_index t
  obtain ⟨-, -, -, -, -, -, -, -, -, -, -, z⟩ := fixed_index t
  refine funext fun a => Fin.ext ?_
  match a with
  | ⟨0, _⟩ => show win0_8.index t (0 : Fin 2) * 4096 + 1 * p.val = t.val * 4096 + p.val; omega
  | ⟨1, _⟩ => show win0_8.index t (1 : Fin 2) * 16 + 1 * k.val = k.val; omega

/-! ## What a step writes back -/

/-- Step `t` writes back, to the first result, the next state on its row band. -/
theorem nextState_written (c : Dev nD) (t : Fin cfg0.N) :
    (dats m 0 c).flushed 7 t
      = ((cfg0.win 7).blk t).view.read (Elt Ideal) (nextState (stArg m c) (knArg m c) (obArg m c) (wtArg m c)) := by
  rw [flushed7]
  unfold out0_7
  rw [View.canon_unit_zero corner]
  simp only [View.ld_unit_zero (S := S4096x240) corner, View.ld_unit_zero (S := S4096x32) corner,
    View.ld_unit_zero (S := S4096x16) corner, View.ld_unit_zero (S := S16x256) corner,
    View.ld_unit_zero (S := S240x256) corner, View.ld_unit_zero (S := S32x256) corner]
  funext y
  obtain ⟨p, q, rfl⟩ : ∃ (p : Fin 4096) (q : Fin 256), y = ix2 p q := ⟨y 0, y 1, eq_ix2 y⟩
  show k0_pay2 (F := Ideal) (iblk m c 1 t) (iblk m c 2 t) (iblk m c 3 t) (iblk m c 4 t) (iblk m c 5 t) (iblk m c 6 t) (ix2 p q)
    = nextState (stArg m c) (knArg m c) (obArg m c) (wtArg m c) (((cfg0.win 7).blk t).view.emb (ix2 p q))
  refine (block_nextState_apply (iblk m c 1 t) (iblk m c 2 t) (iblk m c 3 t) (iblk m c 4 t) (iblk m c 5 t)
    (iblk m c 6 t) p q).trans ?_
  rw [nextStateBlk_emb]
  simp only [tailBlk_apply, knBlk_apply, obBlk_apply, slab1Blk_apply, slab2Blk_apply, slab3Blk_apply]
  rfl

/-- Step `t` writes back, to the second result, the error on its row band. -/
theorem stateError_written (c : Dev nD) (t : Fin cfg0.N) :
    (dats m 0 c).flushed 8 t
      = ((cfg0.win 8).blk t).view.read (Elt Ideal) (stateError (stArg m c) (obArg m c)) := by
  rw [flushed8]
  unfold out0_8
  rw [View.canon_unit_zero corner]
  simp only [View.ld_unit_zero (S := S4096x16) corner]
  funext y
  obtain ⟨p, k, rfl⟩ : ∃ (p : Fin 4096) (k : Fin 16), y = ix2 p k := ⟨y 0, y 1, eq_ix2 y⟩
  show k0_pay1 (F := Ideal) (iblk m c 0 t) (iblk m c 3 t) (ix2 p k)
    = stateError (stArg m c) (obArg m c) (((cfg0.win 8).blk t).view.emb (ix2 p k))
  refine (block_stateError_apply (iblk m c 0 t) (iblk m c 3 t) p k).trans ?_
  rw [stateErrorBlk_emb, headBlk_apply, obBlk_apply]
  rfl

/-! ## The row bands tile the arrays -/

theorem mem_nextStateBlk (t : Fin cfg0.N) (i : S65536x256.Idx) :
    i ∈ ((cfg0.win 7).blk t).view.set ↔ ∀ a : Fin 2, win0_7.index t a * S4096x256.size a ≤ (i a).val
      ∧ (i a).val < win0_7.index t a * S4096x256.size a + S4096x256.size a := by
  show i ∈ ((View.whole main_v8_0).slice (win0_7.rect t)).set ↔ _
  rw [View.set_slice_whole, Rect.mem_set_unit]
  exact Iff.rfl

theorem mem_stateErrorBlk (t : Fin cfg0.N) (i : S65536x16.Idx) :
    i ∈ ((cfg0.win 8).blk t).view.set ↔ ∀ a : Fin 2, win0_8.index t a * S4096x16.size a ≤ (i a).val
      ∧ (i a).val < win0_8.index t a * S4096x16.size a + S4096x16.size a := by
  show i ∈ ((View.whole main_v8_1).slice (win0_8.rect t)).set ↔ _
  rw [View.set_slice_whole, Rect.mem_set_unit]
  exact Iff.rfl

/-- Row `r` lies in the band of step `r / 4096`. -/
theorem nextState_cover (i : S65536x256.Idx) :
    ∃ t : Fin cfg0.N, (cfg0.win 7).flush t = true ∧ i ∈ ((cfg0.win 7).blk t).view.set := by
  have hi0 : (i 0).val < 65536 := (i 0).isLt
  have hi1 : (i 1).val < 256 := (i 1).isLt
  obtain ⟨t, ht⟩ : ∃ t : Fin cfg0.N, t.val = (i 0).val / 4096 :=
    ⟨⟨(i 0).val / 4096, by show _ < grid0.N; rw [N_0]; omega⟩, rfl⟩
  obtain ⟨-, -, -, -, e, -⟩ := band_index t
  obtain ⟨-, -, -, -, -, -, -, -, -, -, z, -⟩ := fixed_index t
  refine ⟨t, flush0_7 t, ?_⟩
  rw [mem_nextStateBlk]
  intro a
  match a with
  | ⟨0, _⟩ =>
    show win0_7.index t (0 : Fin 2) * 4096 ≤ (i 0).val ∧ (i 0).val < win0_7.index t (0 : Fin 2) * 4096 + 4096
    omega
  | ⟨1, _⟩ =>
    show win0_7.index t (1 : Fin 2) * 256 ≤ (i 1).val ∧ (i 1).val < win0_7.index t (1 : Fin 2) * 256 + 256
    omega

theorem stateError_cover (i : S65536x16.Idx) :
    ∃ t : Fin cfg0.N, (cfg0.win 8).flush t = true ∧ i ∈ ((cfg0.win 8).blk t).view.set := by
  have hi0 : (i 0).val < 65536 := (i 0).isLt
  have hi1 : (i 1).val < 16 := (i 1).isLt
  obtain ⟨t, ht⟩ : ∃ t : Fin cfg0.N, t.val = (i 0).val / 4096 :=
    ⟨⟨(i 0).val / 4096, by show _ < grid0.N; rw [N_0]; omega⟩, rfl⟩
  obtain ⟨-, -, -, -, -, e⟩ := band_index t
  obtain ⟨-, -, -, -, -, -, -, -, -, -, -, z⟩ := fixed_index t
  refine ⟨t, flush0_8 t, ?_⟩
  rw [mem_stateErrorBlk]
  intro a
  match a with
  | ⟨0, _⟩ =>
    show win0_8.index t (0 : Fin 2) * 4096 ≤ (i 0).val ∧ (i 0).val < win0_8.index t (0 : Fin 2) * 4096 + 4096
    omega
  | ⟨1, _⟩ =>
    show win0_8.index t (1 : Fin 2) * 16 ≤ (i 1).val ∧ (i 1).val < win0_8.index t (1 : Fin 2) * 16 + 16
    omega

/-! ## The arrays after the run -/

theorem nextState_array (c : Dev nD) :
    (dats m 0 c).arrAt 7 cfg0.N = nextState (stArg m c) (knArg m c) (obArg m c) (wtArg m c) :=
  (dats m 0 c).arrAt_eq_of_cover 7 _ (fun t _ => nextState_written m c t) nextState_cover

theorem stateError_array (c : Dev nD) :
    (dats m 0 c).arrAt 8 cfg0.N = stateError (stArg m c) (obArg m c) :=
  (dats m 0 c).arrAt_eq_of_cover 8 _ (fun t _ => stateError_written m c t) stateError_cover

/-- The kernel's run: it ends with the first result at the next state and the second at the error, as functions of
    the arguments it was launched with, which it leaves unchanged. -/
theorem kernel_run : θ_run defs (onTc (τ := τ) (main (F := Ideal))) ⟨m, fun _ => 0, ρ⟩ fun r => ∀ c : Dev nD,
      r.2.mem ((c : Thread nD τ).loc main_v8_0) = nextState (stArg m c) (knArg m c) (obArg m c) (wtArg m c)
      ∧ r.2.mem ((c : Thread nD τ).loc main_v8_1) = stateError (stArg m c) (obArg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (nextState_array m c),
      (h c).2.1.trans (stateError_array m c), (h c).2.2⟩)
    (run_blocks m ρ)

end Cert.NextState

end
-- ==== Proof.RefValue.lean ====
/-
  The reference computes the specification.

  Its second result is the state's first sixteen columns less the observation: the error, entry by entry.  Its first
  result contracts, over 288 columns, the `tanh` of a concatenated row with the transposed weight.  Read on its three
  stretches, the row is `st - (st - ob)` on columns `0 .. 15`, the state's columns `16 .. 255` next and the known
  features last; with real entries the first stretch is the observation itself, and the sum over 288 columns falls
  into the three partial products of the specification.
-/
import proofs.«120562_j83322365543010_1_alg».proof.Proof.Gen.ReferenceIdeal.Read
import proofs.«120562_j83322365543010_1_alg».proof.Proof.Spec

noncomputable section

namespace Cert.NextState

open Cert.ReferenceIdeal Cert.ReferenceIdeal.Gen Cert.ReferenceIdeal.Read Idealize.ShloMosaic Idealize.ShloMosaic.ValueIdx

variable (st : FVec Ideal S65536x256 .f32) (kn : FVec Ideal S65536x32 .f32) (ob : FVec Ideal S65536x16 .f32)
  (A : FVec Ideal S256x288 .f32)

/-- Columns `0 .. 15` of the concatenated row are the first piece: `st - (st - ob)`. -/
theorem row_head (r : Fin 65536) (k : Fin 16) :
    val_main_v4 (F := Ideal) st kn ob (ix2 r (wHead k)) = val_main_v2 (F := Ideal) st ob (ix2 r k) := by
  unfold val_main_v4
  exact concatenate_apply_piece (1 : Fin S65536x288.rank) _ _ (ix2 r (wHead k)) 0 (by show (0 : ℕ) < 3; decide) S65536x16 _ rfl rfl 0 rfl (ix2 r k)
    (fun b hb => match b with
      | ⟨0, _⟩ => rfl
      | ⟨1, _⟩ => absurd (Fin.ext rfl) hb)
    (Nat.zero_add _)

/-- Columns `16 .. 255` are the second piece: the state's columns `16 .. 255`. -/
theorem row_tail (r : Fin 65536) (k : Fin 240) :
    val_main_v4 (F := Ideal) st kn ob (ix2 r (wTail k)) = val_main_v3 (F := Ideal) st (ix2 r k) := by
  unfold val_main_v4
  exact concatenate_apply_piece (1 : Fin S65536x288.rank) _ _ (ix2 r (wTail k)) 1 (by show (1 : ℕ) < 3; decide) S65536x240 _ rfl rfl 16 rfl (ix2 r k)
    (fun b hb => match b with
      | ⟨0, _⟩ => rfl
      | ⟨1, _⟩ => absurd (Fin.ext rfl) hb)
    rfl

/-- Columns `256 .. 287` are the third piece: the known features. -/
theorem row_known (r : Fin 65536) (k : Fin 32) :
    val_main_v4 (F := Ideal) st kn ob (ix2 r (wKnown k)) = kn (ix2 r k) := by
  unfold val_main_v4
  exact concatenate_apply_piece (1 : Fin S65536x288.rank) _ _ (ix2 r (wKnown k)) 2 (by show (2 : ℕ) < 3; decide) S65536x32 _ rfl rfl 256 rfl (ix2 r k)
    (fun b hb => match b with
      | ⟨0, _⟩ => rfl
      | ⟨1, _⟩ => absurd (Fin.ext rfl) hb)
    rfl

/-- The reference's second result is the error. -/
theorem reference_stateError : val_main_v1 (F := Ideal) st ob = stateError st ob := by
  funext i
  obtain ⟨r, k, rfl⟩ : ∃ (r : Fin 65536) (k : Fin 16), i = ix2 r k := ⟨i 0, i 1, eq_ix2 i⟩
  rw [val_main_v1_apply, val_main_v0_apply]
  have e3 : idx_main_v0 (ix2 r k) = ix2 r (headCol k) :=
    funext fun a => match a with | ⟨0, _⟩ => rfl | ⟨1, _⟩ => rfl
  rw [e3]
  rfl

/-- The reference's first result is the next state, when the state and the observation are real. -/
theorem reference_nextState (hst : AllReal st) (hob : AllReal ob) :
    val_main_v7 (F := Ideal) st kn ob A = nextState st kn ob A := by
  funext i
  obtain ⟨r, j, rfl⟩ : ∃ (r : Fin 65536) (j : Fin 256), i = ix2 r j := ⟨i 0, i 1, eq_ix2 i⟩
  rw [val_main_v7_apply, sum_three_stretches]
  unfold nextState
  refine congrArg₂ (· + ·) (congrArg₂ (· + ·) ?_ ?_) ?_
  · refine Finset.sum_congr rfl fun k _ => ?_
    rw [val_main_v5_apply, val_main_v6_apply]
    have e1 : lidx_main_v7 (ix2 r j) (wHead k) = ix2 r (wHead k) :=
      funext fun a => match a with | ⟨0, _⟩ => rfl | ⟨1, _⟩ => rfl
    have e2 : idx_main_v6 (ridx_main_v7 (ix2 r j) (wHead k)) = ix2 j (wHead k) :=
      funext fun a => match a with | ⟨0, _⟩ => rfl | ⟨1, _⟩ => rfl
    rw [e1, e2, row_head, val_main_v2_apply, val_main_v1_apply, val_main_v0_apply]
    have e3 : idx_main_v0 (ix2 r k) = ix2 r (headCol k) :=
      funext fun a => match a with | ⟨0, _⟩ => rfl | ⟨1, _⟩ => rfl
    rw [e3]
    show Ideal.tanh (st (ix2 r (headCol k)) - (st (ix2 r (headCol k)) - ob (ix2 r k))) * A (ix2 j (wHead k)) = _
    rw [sub_sub_self_of_real (hst _) (hob _)]
  · refine Finset.sum_congr rfl fun k _ => ?_
    rw [val_main_v5_apply, val_main_v6_apply]
    have e1 : lidx_main_v7 (ix2 r j) (wTail k) = ix2 r (wTail k) :=
      funext fun a => match a with | ⟨0, _⟩ => rfl | ⟨1, _⟩ => rfl
    have e2 : idx_main_v6 (ridx_main_v7 (ix2 r j) (wTail k)) = ix2 j (wTail k) :=
      funext fun a => match a with | ⟨0, _⟩ => rfl | ⟨1, _⟩ => rfl
    rw [e1, e2, row_tail, val_main_v3_apply]
    have e3 : idx_main_v3 (ix2 r k) = ix2 r (tailCol k) :=
      funext fun a => match a with | ⟨0, _⟩ => rfl | ⟨1, _⟩ => rfl
    rw [e3]
    rfl
  · refine Finset.sum_congr rfl fun k _ => ?_
    rw [val_main_v5_apply, val_main_v6_apply]
    have e1 : lidx_main_v7 (ix2 r j) (wKnown k) = ix2 r (wKnown k) :=
      funext fun a => match a with | ⟨0, _⟩ => rfl | ⟨1, _⟩ => rfl
    have e2 : idx_main_v6 (ridx_main_v7 (ix2 r j) (wKnown k)) = ix2 j (wKnown k) :=
      funext fun a => match a with | ⟨0, _⟩ => rfl | ⟨1, _⟩ => rfl
    rw [e1, e2, row_known]
    rfl

end Cert.NextState

end
-- ==== Proof.Finite.lean ====
/-
  From the precondition to real entries.

  The precondition is the conjunction, over the four arguments, of "every entry's absolute value is below `+∞`".
  On the extended reals `|x| = max x (-x)`, which is `+∞` at both infinities, so an entry that passes the test is a
  real number.
-/
import proofs.«120562_j83322365543010_1_alg».proof.Pre_finite_inputs
import proofs.«120562_j83322365543010_1_alg».proof.Proof.Spec
import Idealize.ShloMosaic.Lib.ReduceAll
import Idealize.ShloMosaic.Lib.ValueIdx
import Idealize.ShloMosaic.PureOps.Ideal

noncomputable section

namespace Cert.NextState

open Idealize.ShloMosaic Cert.Pre_finite_inputs

instance : Subsingleton S_.Idx := ⟨fun a b => funext fun d => d.elim0⟩

/-- The bit pattern the test compares against is `+∞`. -/
theorem inf_pattern : Ideal.ofBits .f32 0x7F800000#32 = ⊤ := by
  simp [Ideal.ofBits, Ideal.ieee]

/-- An extended real whose absolute value is strictly below `+∞` is a real number. -/
theorem real_of_abs_lt_inf (x : EReal)
    (h : Ideal.cmp .olt (max x (-x)) (Ideal.ofBits .f32 0x7F800000#32) = 1#1) : x ≠ ⊤ ∧ x ≠ ⊥ := by
  rw [inf_pattern] at h
  induction x using EReal.rec with
  | bot => simp [Ideal.cmp] at h
  | top => simp [Ideal.cmp] at h
  | coe r => exact ⟨EReal.coe_ne_top r, EReal.coe_ne_bot r⟩

/-- One argument's test: if "all entries have absolute value below `+∞`" came out true, every entry is real. -/
theorem allReal_of_test {s : Shape} {axes : List (Fin s.rank)} (x : FVec Ideal s .f32)
    (b : S_.BroadcastsInDim s (![] : Fin 0 → Fin s.rank)) (hr : s.ReducesTo axes S_) (hu : 0 < S_.numel) (init : IVec S_ 1)
    (e : Host.reduce IntOp.andi
      (cmpf .olt (Host.absf x) (broadcastInDim s ![] b (constant (F := Ideal) S_ .f32 0x7F800000#32))) init hr hu ValueIdx.ix0 = 1#1) :
    AllReal x := fun i =>
  real_of_abs_lt_inf (x i) (Host.reduce_andi_all _ init hr hu ValueIdx.ix0 e i)

variable [Facts]

/-- Under the precondition all four arguments have real entries. -/
theorem allReal_of_pre (st : FVec Ideal S65536x256 .f32) (kn : FVec Ideal S65536x32 .f32) (ob : FVec Ideal S65536x16 .f32)
    (A : FVec Ideal S256x288 .f32) (h : fn (F := Ideal) st kn ob A = fun _ => 1#1) :
    AllReal st ∧ AllReal kn ∧ AllReal ob ∧ AllReal A := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨allReal_of_test st _ _ _ _ h1, allReal_of_test kn _ _ _ _ h2, allReal_of_test ob _ _ _ _ h3,
    allReal_of_test A _ _ _ _ h4⟩

end Cert.NextState

end
-- ==== Proof.lean ====
/-
  The kernel and its reference compute the same two arrays over the extended reals, for finite inputs.

  Both take a state `st` (65536 × 256), known features `kn` (65536 × 32), an observation `ob` (65536 × 16) and a
  weight `A` (256 × 288).  The second result is `st[:, :16] - ob` in both.  For the first, the reference forms the
  288-wide row `[st[:, :16] - (st[:, :16] - ob), st[:, 16:], kn]`, takes `tanh` and multiplies by `Aᵀ`; the kernel
  instead sums three products, `tanh(ob) · A[:, :16]ᵀ + tanh(st[:, 16:]) · A[:, 16:256]ᵀ + tanh(kn) · A[:, 256:]ᵀ`,
  sixteen bands of 4096 rows at a time.  They agree because `x - (x - y) = y` for real `x` and `y` (this is where
  finiteness of the state and the observation is used: at an infinite state entry the difference does not cancel),
  `tanh` acts entry by entry, and a sum over 288 columns is the sum over its three stretches.

  Spec.lean states the two results as functions of the arguments and proves the two laws; RefValue.lean reads the
  reference's stages into that form; KernelBlock.lean reads one band's block, KernelArrays.lean the arrays the host
  prepares, KernelValue.lean puts the bands together; Finite.lean reads real entries out of the precondition.
-/
import proofs.«120562_j83322365543010_1_alg».proof.Defs
import proofs.«120562_j83322365543010_1_alg».proof.Proof.Gen.Kernel
import proofs.«120562_j83322365543010_1_alg».proof.Proof.Gen.Kernel.Skeleton
import proofs.«120562_j83322365543010_1_alg».proof.Proof.Gen.Kernel.Launch
import proofs.«120562_j83322365543010_1_alg».proof.Proof.Gen.Kernel.Points
import proofs.«120562_j83322365543010_1_alg».proof.Proof.Gen.Kernel.Frame
import proofs.«120562_j83322365543010_1_alg».proof.Proof.Gen.KernelIdeal
import proofs.«120562_j83322365543010_1_alg».proof.Proof.Gen.KernelIdeal.Skeleton
import proofs.«120562_j83322365543010_1_alg».proof.Proof.Gen.KernelIdeal.Launch
import proofs.«120562_j83322365543010_1_alg».proof.Proof.Gen.KernelIdeal.Points
import proofs.«120562_j83322365543010_1_alg».proof.Proof.Gen.KernelIdeal.Frame
import proofs.«120562_j83322365543010_1_alg».proof.Proof.Gen.ReferenceIdeal
import proofs.«120562_j83322365543010_1_alg».proof.Proof.Gen.Pre_finite_inputs
import proofs.«120562_j83322365543010_1_alg».proof.Proof.Gen.KernelIdeal.Value
import proofs.«120562_j83322365543010_1_alg».proof.Proof.Gen.ReferenceIdeal.Run
import proofs.«120562_j83322365543010_1_alg».proof.Proof.Gen.ReferenceIdeal.Read
import proofs.«120562_j83322365543010_1_alg».proof.Proof.KernelValue
import proofs.«120562_j83322365543010_1_alg».proof.Proof.RefValue
import proofs.«120562_j83322365543010_1_alg».proof.Proof.Finite
import Idealize.ShloMosaic.Adequacy
import Idealize.ShloMosaic.Init

noncomputable section

namespace Cert.Proof

open Idealize.ShloMosaic Idealize.SL.Sem Cert.NextState

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation of the kernel was rewritten to read it over the extended reals. -/
theorem preserves : Cert.preserves_Kernel_KernelIdeal := trivial

/-- From arguments that agree and are finite, both programs end with the next state and the error. -/
theorem algebraic : Cert.algebraic_KernelIdeal_ReferenceIdeal := by
  intro m ρ m' ρ' hpre hagree
  refine ⟨fun c => nextState (stArg m c) (knArg m c) (obArg m c) (wtArg m c),
    fun c => stateError (stArg m c) (obArg m c), kernel_run m ρ, ?_⟩
  refine (θ_run Cert.ReferenceIdeal.defs _ _).mono (fun r h c => ?_)
    (Cert.ReferenceIdeal.Value.run (F := Ideal) m' ρ')
  obtain ⟨hst, -, hob, -⟩ := allReal_of_pre _ _ _ _ (hpre c)
  obtain ⟨a0, a1, a2, a3⟩ := hagree c
  refine ⟨(h c).1.trans ?_, (h c).2.1.trans ?_, (h c).2.2⟩
  · rw [a0, a1, a2, a3]
    exact reference_nextState (stArg m c) (knArg m c) (obArg m c) (wtArg m c) hst hob
  · rw [a0, a2]
    exact reference_stateError (stArg m c) (obArg m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
